-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000x1 : Shape := ⟨2, ![1250000, 1]⟩
abbrev S1250000 : Shape := ⟨1, ![1250000]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x1 : S_.BroadcastsInDim S1250000x1 (![] : Fin 0 → Fin S1250000x1.rank)
  reducesTo_S1250000x1_S_d0_1 : S1250000x1.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1250000x1 .f32) (main_arg2 : IVec S1250000 32) (main_arg3 : IVec S1250000 32) (main_arg4 : FVec F S64x128 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x1 .f32 := Host.absf main_arg1
  let main_cst_0 : FVec F S_ .f32 := constant S_ .f32 0x7F800000#32
  let main_v5 : FVec F S1250000x1 .f32 := broadcastInDim S1250000x1 ![] bcast_S_S1250000x1 main_cst_0
  let main_v6 : IVec S1250000x1 1 := cmpf .olt main_v4 main_v5
  let main_c_1 : IVec S_ 1 := constantI S_ 1 1#1
  let main_v7 : IVec S_ 1 := (fun x v => Host.reduce IntOp.andi x v reducesTo_S1250000x1_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1250000x1 : Shape := ⟨2, ![1250000, 1]⟩
abbrev S1250000 : Shape := ⟨1, ![1250000]⟩
abbrev S64x128 : Shape := ⟨2, ![64, 128]⟩
abbrev S64 : Shape := ⟨1, ![64]⟩
abbrev S_ : Shape := ⟨0, ![]⟩
abbrev S1250000x64 : Shape := ⟨2, ![1250000, 64]⟩
abbrev S100000 : Shape := ⟨1, ![100000]⟩
abbrev S100000x1 : Shape := ⟨2, ![100000, 1]⟩
abbrev S128x64 : Shape := ⟨2, ![128, 64]⟩
abbrev S1x64 : Shape := ⟨2, ![1, 64]⟩
abbrev S5000x64 : Shape := ⟨2, ![5000, 64]⟩
abbrev S5000x128 : Shape := ⟨2, ![5000, 128]⟩

abbrev nBuf : Space → Nat
  | .hbm => 36
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1250000x1, .f32⟩
  | .hbm, ⟨2, _⟩ => ⟨S1250000, .i32⟩
  | .hbm, ⟨3, _⟩ => ⟨S1250000, .i32⟩
  | .hbm, ⟨4, _⟩ => ⟨S64x128, .f32⟩
  | .hbm, ⟨5, _⟩ => ⟨S64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S1250000x64, .f32⟩
  | .hbm, ⟨16, _⟩ => ⟨S1250000x64, .f32⟩
  | .hbm, ⟨17, _⟩ => ⟨S_, .f32⟩
  | .hbm, ⟨18, _⟩ => ⟨S100000x64, .f32⟩
  | .hbm, ⟨19, _⟩ => ⟨S1250000x1, .i32⟩
  | .hbm, ⟨20, _⟩ => ⟨S100000x64, .f32⟩
  | .hbm, ⟨21, _⟩ => ⟨S_, .f32⟩
  | .hbm, ⟨22, _⟩ => ⟨S1250000, .f32⟩
  | .hbm, ⟨23, _⟩ => ⟨S_, .f32⟩
  | .hbm, ⟨24, _⟩ => ⟨S100000, .f32⟩
  | .hbm, ⟨25, _⟩ => ⟨S1250000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S128x64, .f32⟩
  | .hbm, ⟨34, _⟩ => ⟨S1x64, .f32⟩
  | .hbm, ⟨35, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x128_S128x64_1_0 : S64x128.Transposes [1, 0] S128x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1250000x1 : Shape := ⟨2, ![1250000, 1]⟩
abbrev S1250000 : Shape := ⟨1, ![1250000]⟩
abbrev S64x128 : Shape := ⟨2, ![64, 128]⟩
abbrev S64 : Shape := ⟨1, ![64]⟩
abbrev S_ : Shape := ⟨0, ![]⟩
abbrev S1250000x64 : Shape := ⟨2, ![1250000, 64]⟩
abbrev S100000 : Shape := ⟨1, ![100000]⟩
abbrev S100000x1 : Shape := ⟨2, ![100000, 1]⟩
abbrev S100000x128 : Shape := ⟨2, ![100000, 128]⟩
abbrev S128x64 : Shape := ⟨2, ![128, 64]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000x1, .f32⟩
  | .hbm, ⟨2, _⟩ => ⟨S1250000, .i32⟩
  | .hbm, ⟨3, _⟩ => ⟨S1250000, .i32⟩
  | .hbm, ⟨4, _⟩ => ⟨S64x128, .f32⟩
  | .hbm, ⟨5, _⟩ => ⟨S64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S1250000x64, .f32⟩
  | .hbm, ⟨16, _⟩ => ⟨S1250000x64, .f32⟩
  | .hbm, ⟨17, _⟩ => ⟨S_, .f32⟩
  | .hbm, ⟨18, _⟩ => ⟨S100000x64, .f32⟩
  | .hbm, ⟨19, _⟩ => ⟨S1250000x1, .i32⟩
  | .hbm, ⟨20, _⟩ => ⟨S100000x64, .f32⟩
  | .hbm, ⟨21, _⟩ => ⟨S_, .f32⟩
  | .hbm, ⟨22, _⟩ => ⟨S1250000, .f32⟩
  | .hbm, ⟨23, _⟩ => ⟨S_, .f32⟩
  | .hbm, ⟨24, _⟩ => ⟨S100000, .f32⟩
  | .hbm, ⟨25, _⟩ => ⟨S1250000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S100000x128, .f32⟩
  | .hbm, ⟨34, _⟩ => ⟨S128x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x128_S128x64_S100000x64_1_0_0_1_n_n_wf : DotDims.WF S100000x128 S128x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.HostArrays.lean ====
/-
  THE ARRAYS THE KERNEL'S CALL IS GIVEN, AS TERMS OF THE ARGUMENTS.

  Before the call the kernel program computes, with host operations, three of the call's four operands:
  the aggregated neighbour features
      neigh(v) = ( Σ_{e : dst e = v} h(src e) · w(e) ) / max(#{e : dst e = v}, 1)
  (a gather of h's rows by src with negative indices wrapped, times w, scatter-added by dst; the in-degree by a second
  scatter-add of ones; the quotient), the transposed weights Wᵀ, and the bias b as a 1 x 64 row. The reference program
  computes the first two by the same operations in the same order, so each is the reference's own stage of the same
  arguments; the bias row the kernel program makes by a reshape and the reference by a broadcast along axis 1, which is
  the same array.
-/
import proofs.«152355_j15324443312418_1_alg».proof.Proof.Gen.KernelIdeal.Frame
import proofs.«152355_j15324443312418_1_alg».proof.Proof.Gen.ReferenceIdeal.Read
import proofs.«152355_j15324443312418_1_alg».proof.Proof.LibLayout
import Idealize.ShloMosaic.Lib.StableHlo.Run

noncomputable section

namespace Cert.KernelIdeal.Whole

open Cert.KernelIdeal Cert.KernelIdeal.Gen
open Idealize.ShloMosaic Idealize.ShloMosaic.TcCoe Idealize.SL.Sem
open Cert.ReferenceIdeal.Read (val_main_v20 val_main_v22 val_main_v24)

variable (m : (ℓ : Loc nD τ sig) → Buf (Elt Ideal) ℓ)

/-- The aggregated neighbour features: the same operations, in the same order, as the reference's. -/
theorem neigh_eq (c : Dev nD) :
    (V m c main_v20 : S100000x64.Idx → Elt Ideal .f32)
      = val_main_v20 (F := Ideal) (m ((c : Thread nD τ).loc main_arg0)) (m ((c : Thread nD τ).loc main_arg1))
        (m ((c : Thread nD τ).loc main_arg2)) (m ((c : Thread nD τ).loc main_arg3)) := by
  dsimp only [Gen.V, Gen.hostOps0]
  after_results_simp
  rfl

/-- The transposed weights. -/
theorem wt_eq (c : Dev nD) :
    (V m c main_v21 : S128x64.Idx → Elt Ideal .f32) = val_main_v22 (F := Ideal) (m ((c : Thread nD τ).loc main_arg4)) := by
  dsimp only [Gen.V, Gen.hostOps0]
  after_results
  rfl

/-- The bias as a 1 x 64 row: the kernel program's reshape is the reference's broadcast along axis 1. -/
theorem brow_eq (c : Dev nD) :
    (V m c main_v22 : S1x64.Idx → Elt Ideal .f32) = val_main_v24 (F := Ideal) (m ((c : Thread nD τ).loc main_arg5)) := by
  have e : (V m c main_v22 : S1x64.Idx → Elt Ideal .f32)
      = shapeCast S1x64 (m ((c : Thread nD τ).loc main_arg5) : S64.Idx → Elt Ideal .f32) shapeCasts_S64_S1x64 := by
    dsimp only [Gen.V, Gen.hostOps0]
    after_results
    rfl
  rw [e]
  exact Cert.Proof.Layout.reshape_row_eq_broadcastInDim _ _ _

/-! ## The same, for the call's operands by position

The call's operand w is the array `Pipeline.arrRef spec0 w`: operand 0 is h itself, operands 1, 2 and 3 the three arrays
above. -/

/-- Operand 0 is the node features as launched: no host operation writes them. -/
theorem operand0_eq (c : Dev nD) :
    (V m c (Pipeline.arrRef spec0 0) : S100000x64.Idx → Elt Ideal .f32) = m ((c : Thread nD τ).loc main_arg0) :=
  V_main_arg0 m c

/-- Operand 1 is the aggregated neighbour features. -/
theorem operand1_eq (c : Dev nD) :
    (V m c (Pipeline.arrRef spec0 1) : S100000x64.Idx → Elt Ideal .f32)
      = val_main_v20 (F := Ideal) (m ((c : Thread nD τ).loc main_arg0)) (m ((c : Thread nD τ).loc main_arg1))
        (m ((c : Thread nD τ).loc main_arg2)) (m ((c : Thread nD τ).loc main_arg3)) :=
  neigh_eq m c

/-- Operand 2 is the transposed weights. -/
theorem operand2_eq (c : Dev nD) :
    (V m c (Pipeline.arrRef spec0 2) : S128x64.Idx → Elt Ideal .f32) = val_main_v22 (F := Ideal) (m ((c : Thread nD τ).loc main_arg4)) :=
  wt_eq m c

/-- Operand 3 is the bias row. -/
theorem operand3_eq (c : Dev nD) :
    (V m c (Pipeline.arrRef spec0 3) : S1x64.Idx → Elt Ideal .f32) = val_main_v24 (F := Ideal) (m ((c : Thread nD τ).loc main_arg5)) :=
  brow_eq m c

end Cert.KernelIdeal.Whole

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibJoinCols.lean ====
/-
  TWO ARRAYS JOINED SIDE BY SIDE, READ AT ONE ELEMENT.

  An array [n, a] and an array [n, b] joined along the column axis give an array [n, c] with c = a + b: element (p, k)
  is the left array's (p, k) when k < a and the right array's (p, k - a) otherwise (joined_left, joined_right). So if
  row p of two small arrays is row r of two large ones, piece by piece, then row p of the small joined array is row r
  of the large joined array (joined_row_eq): joining commutes with taking a block of rows.

  Generic in the extents and in the element type.
-/
import Idealize.ShloMosaic.Lib.Pipeline.Value
import Idealize.ShloMosaic.Lib.ValueIdx

namespace Cert.LibJoinCols

open Idealize.ShloMosaic Idealize.ShloMosaic.ValueIdx

variable {α : Type}

/-- The joined width is the sum of the two widths. -/
theorem width_eq {n a b c : Nat}
    (h : Shape.Concatenates [(⟨2, ![n, a]⟩ : Shape), ⟨2, ![n, b]⟩] ⟨2, ![n, c]⟩ 1) : a + b = c := by
  have e := h.2.2
  simp only [List.map, List.sum_cons, List.sum_nil, dite_true, Nat.add_zero] at e
  exact e

/-- A column of the left part: element (p, k) of the joined array is element (p, k) of the left array. -/
theorem joined_left {n a b c : Nat}
    (h : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α)
    (p : Fin n) (k : Fin c) (k₁ : Fin a) (hk : k₁.val = k.val) :
    concatenate ⟨2, ![n, c]⟩ 1 [⟨⟨2, ![n, a]⟩, x⟩, ⟨⟨2, ![n, b]⟩, y⟩] h (ix2 p k) = x (ix2 p k₁) :=
  concatenate_pair_apply_left 1 x y h (ix2 p k) rfl (ix2 p k₁) (fun d => by
    match d with
    | ⟨0, _⟩ => rfl
    | ⟨1, _⟩ => exact hk)

/-- A column of the right part: element (p, k) of the joined array is element (p, k - a) of the right array. -/
theorem joined_right {n a b c : Nat}
    (h : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α)
    (p : Fin n) (k : Fin c) (k₂ : Fin b) (hk : k₂.val + a = k.val) :
    concatenate ⟨2, ![n, c]⟩ 1 [⟨⟨2, ![n, a]⟩, x⟩, ⟨⟨2, ![n, b]⟩, y⟩] h (ix2 p k) = y (ix2 p k₂) :=
  concatenate_pair_apply_right 1 x y h (ix2 p k) rfl rfl (ix2 p k₂) (fun d hd => by
    match d with
    | ⟨0, _⟩ => rfl
    | ⟨1, _⟩ => exact absurd rfl hd) hk

/-- Joining commutes with taking rows: if row p of x is row r of X and row p of y is row r of Y, then row p of x
    joined with y is row r of X joined with Y. -/
theorem joined_row_eq {n N a b c : Nat}
    (h₁ : Shape.Concatenates [(⟨2, ![n, a]⟩ : Shape), ⟨2, ![n, b]⟩] ⟨2, ![n, c]⟩ 1)
    (h₂ : Shape.Concatenates [(⟨2, ![N, a]⟩ : Shape), ⟨2, ![N, b]⟩] ⟨2, ![N, c]⟩ 1)
    (x : (⟨2, ![n, a]⟩ : Shape).Idx → α) (y : (⟨2, ![n, b]⟩ : Shape).Idx → α)
    (X : (⟨2, ![N, a]⟩ : Shape).Idx → α) (Y : (⟨2, ![N, b]⟩ : Shape).Idx → α)
    (p : Fin n) (r : Fin N)
    (hx : ∀ k : Fin a, x (ix2 p k) = X (ix2 r k)) (hy : ∀ k : Fin b, y (ix2 p k) = Y (ix2 r k)) (k : Fin c) :
    concatenate ⟨2, ![n, c]⟩ 1 [⟨⟨2, ![n, a]⟩, x⟩, ⟨⟨2, ![n, b]⟩, y⟩] h₁ (ix2 p k)
      = concatenate ⟨2, ![N, c]⟩ 1 [⟨⟨2, ![N, a]⟩, X⟩, ⟨⟨2, ![N, b]⟩, Y⟩] h₂ (ix2 r k) := by
  have hc := width_eq h₁
  have hkc := k.isLt
  by_cases hk : k.val < a
  · rw [joined_left h₁ x y p k ⟨k.val, hk⟩ rfl, joined_left h₂ X Y r k ⟨k.val, hk⟩ rfl]
    exact hx _
  · have hk2 : k.val - a < b := by omega
    rw [joined_right h₁ x y p k ⟨k.val - a, hk2⟩ (by show k.val - a + a = k.val; omega),
      joined_right h₂ X Y r k ⟨k.val - a, hk2⟩ (by show k.val - a + a = k.val; omega)]
    exact hy _

end Cert.LibJoinCols
-- ==== Proof.Dense.lean ====
/-
  THE DENSE STAGE AT ONE ELEMENT: a block of rows against the whole array.

  The stage is  out = max([A | B] · Wt + bias, 0):  the node features A [N, a] and the aggregated neighbour features
  B [N, b] joined side by side into [N, c], multiplied by the weight matrix Wt [c, o], a bias row added to every row,
  and the rectifier. Element (r, q) of it is

      max( Σ_k [A | B](r, k) · Wt(k, q) + bias(q), 0 ).

  One side computes it on a block of nb rows at a time: the two blocks are joined, both operands of the product pass
  through a narrower float format (the identity on the extended reals), the product is accumulated from zero on the
  matrix unit, and the bias arrives as a 1 x o row broadcast down the block. The other side computes it on the whole
  arrays with the host's product, the bias a vector laid as a 1 x o row and then broadcast down the array. Both are the
  same sum of the same products, so no law beyond the definitions is needed, and nothing is asked of the entries: they
  may be any extended reals.

  block_product: the two products agree at (p, q) and (r, q) when row p of each block is row r of its array.
  block_entry: the two whole stages agree there.
-/
import Idealize.ShloMosaic.PureOps.Ideal
import Idealize.ShloMosaic.PureOps.Ideal.Laws
import Idealize.ShloMosaic.Lib.ValueIdx
import Idealize.ShloMosaic.Lib.Pipeline.Value
import proofs.«152355_j15324443312418_1_alg».proof.Proof.LibBlocks
import proofs.«152355_j15324443312418_1_alg».proof.Proof.LibJoinCols

noncomputable section

open scoped BigOperators

namespace Cert.Dense

open Idealize.ShloMosaic Idealize.ShloMosaic.ValueIdx

variable {nb N a b c o : Nat}

/-- The product of the joined block with the weights, accumulated from zero, at (p, q), is the host's product of the
    joined arrays with the weights at (r, q), when row p of each block is row r of its array: both are the sum over
    the c joined columns of joined (·, k) times weight (k, q). -/
theorem block_product
    (hj₁ : Shape.Concatenates [(⟨2, ![nb, a]⟩ : Shape), ⟨2, ![nb, b]⟩] ⟨2, ![nb, c]⟩ 1)
    (hj₂ : Shape.Concatenates [(⟨2, ![N, a]⟩ : Shape), ⟨2, ![N, b]⟩] ⟨2, ![N, c]⟩ 1)
    (dk : DotDims ⟨2, ![nb, c]⟩ ⟨2, ![c, o]⟩ ⟨2, ![nb, o]⟩) (hdk : dk = DotDims.plain nb c o)
    (dr : DotDims ⟨2, ![N, c]⟩ ⟨2, ![c, o]⟩ ⟨2, ![N, o]⟩) (hdr : dr = DotDims.plain N c o)
    (hc1 : (⟨2, ![nb, b]⟩ : Shape).ShapeCasts ⟨2, ![nb, b]⟩) (hc2 : (⟨2, ![c, o]⟩ : Shape).ShapeCasts ⟨2, ![c, o]⟩)
    (hlt : FTy.bf16.bits < FTy.f32.bits)
    (x0 : FVec Ideal ⟨2, ![nb, a]⟩ .f32) (x1 : FVec Ideal ⟨2, ![nb, b]⟩ .f32) (x2 : FVec Ideal ⟨2, ![c, o]⟩ .f32)
    (A : FVec Ideal ⟨2, ![N, a]⟩ .f32) (B : FVec Ideal ⟨2, ![N, b]⟩ .f32) (wt : FVec Ideal ⟨2, ![c, o]⟩ .f32)
    (p : Fin nb) (r : Fin N) (q : Fin o)
    (h0 : ∀ k : Fin a, x0 (ix2 p k) = A (ix2 r k)) (h1 : ∀ k : Fin b, x1 (ix2 p k) = B (ix2 r k)) (h2 : x2 = wt) :
    matmul dk none
        (truncf .bf16 (concatenate ⟨2, ![nb, c]⟩ 1 [⟨⟨2, ![nb, a]⟩, x0⟩, ⟨⟨2, ![nb, b]⟩, shapeCast ⟨2, ![nb, b]⟩ x1 hc1⟩] hj₁) hlt)
        (truncf .bf16 (shapeCast ⟨2, ![c, o]⟩ x2 hc2) hlt) (constant ⟨2, ![nb, o]⟩ .f32 0x00000000#32) (ix2 p q)
      = Host.dotGeneral dr none (concatenate ⟨2, ![N, c]⟩ 1 [⟨⟨2, ![N, a]⟩, A⟩, ⟨⟨2, ![N, b]⟩, B⟩] hj₂) wt (ix2 r q) := by
  subst h2
  rw [shapeCast_self, shapeCast_self]
  show FloatOps.matmul dk none _ _ _ _ = FloatOps.dotGeneral dr none .single _ x2 (ix2 r q)
  rw [LibBlocks.matmul_plain_apply dk hdk, LibBlocks.dotGeneral_plain_apply dr hdr]
  refine Finset.sum_congr rfl fun k _ => ?_
  rw [truncf_apply, truncf_apply, LibJoinCols.joined_row_eq hj₁ hj₂ x0 x1 A B p r h0 h1 k]

/-- The whole stage on a block, at (p, q), is the whole stage on the arrays at (r, q), when row p of each block is
    row r of its array, the weights are the same, and the block's bias row is the bias vector laid as a row. -/
theorem block_entry
    (hj₁ : Shape.Concatenates [(⟨2, ![nb, a]⟩ : Shape), ⟨2, ![nb, b]⟩] ⟨2, ![nb, c]⟩ 1)
    (hj₂ : Shape.Concatenates [(⟨2, ![N, a]⟩ : Shape), ⟨2, ![N, b]⟩] ⟨2, ![N, c]⟩ 1)
    (dk : DotDims ⟨2, ![nb, c]⟩ ⟨2, ![c, o]⟩ ⟨2, ![nb, o]⟩) (hdk : dk = DotDims.plain nb c o)
    (dr : DotDims ⟨2, ![N, c]⟩ ⟨2, ![c, o]⟩ ⟨2, ![N, o]⟩) (hdr : dr = DotDims.plain N c o)
    (hc1 : (⟨2, ![nb, b]⟩ : Shape).ShapeCasts ⟨2, ![nb, b]⟩) (hc2 : (⟨2, ![c, o]⟩ : Shape).ShapeCasts ⟨2, ![c, o]⟩)
    (hc3 : (⟨2, ![1, o]⟩ : Shape).ShapeCasts ⟨2, ![1, o]⟩)
    (hlt : FTy.bf16.bits < FTy.f32.bits)
    (hb : (⟨2, ![1, o]⟩ : Shape).Broadcasts ⟨2, ![nb, o]⟩)
    (hbd : (⟨2, ![1, o]⟩ : Shape).BroadcastsInDim ⟨2, ![N, o]⟩ ![0, 1])
    (hz : (⟨0, ![]⟩ : Shape).BroadcastsInDim ⟨2, ![N, o]⟩ ![])
    (x0 : FVec Ideal ⟨2, ![nb, a]⟩ .f32) (x1 : FVec Ideal ⟨2, ![nb, b]⟩ .f32) (x2 : FVec Ideal ⟨2, ![c, o]⟩ .f32)
    (x3 : FVec Ideal ⟨2, ![1, o]⟩ .f32)
    (A : FVec Ideal ⟨2, ![N, a]⟩ .f32) (B : FVec Ideal ⟨2, ![N, b]⟩ .f32) (wt : FVec Ideal ⟨2, ![c, o]⟩ .f32)
    (brow : FVec Ideal ⟨2, ![1, o]⟩ .f32)
    (p : Fin nb) (r : Fin N) (q : Fin o)
    (h0 : ∀ k : Fin a, x0 (ix2 p k) = A (ix2 r k)) (h1 : ∀ k : Fin b, x1 (ix2 p k) = B (ix2 r k)) (h2 : x2 = wt)
    (h3 : x3 = brow) :
    maximumf
        (addf
          (matmul dk none
            (truncf .bf16 (concatenate ⟨2, ![nb, c]⟩ 1 [⟨⟨2, ![nb, a]⟩, x0⟩, ⟨⟨2, ![nb, b]⟩, shapeCast ⟨2, ![nb, b]⟩ x1 hc1⟩] hj₁) hlt)
            (truncf .bf16 (shapeCast ⟨2, ![c, o]⟩ x2 hc2) hlt) (constant ⟨2, ![nb, o]⟩ .f32 0x00000000#32))
          (broadcastTo ⟨2, ![nb, o]⟩ (shapeCast ⟨2, ![1, o]⟩ x3 hc3) hb))
        (broadcast ⟨2, ![nb, o]⟩ (Scalar.ofBits (F := Ideal) .f32 0x00000000#32)) (ix2 p q)
      = maximumf
        (addf (Host.dotGeneral dr none (concatenate ⟨2, ![N, c]⟩ 1 [⟨⟨2, ![N, a]⟩, A⟩, ⟨⟨2, ![N, b]⟩, B⟩] hj₂) wt)
          (broadcastInDim ⟨2, ![N, o]⟩ ![0, 1] hbd brow))
        (broadcastInDim ⟨2, ![N, o]⟩ ![] hz (constant (F := Ideal) ⟨0, ![]⟩ .f32 0x00000000#32)) (ix2 r q) := by
  have hprod := block_product hj₁ hj₂ dk hdk dr hdr hc1 hc2 hlt x0 x1 x2 A B wt p r q h0 h1 h2
  have hc0 : (⟨2, ![nb, o]⟩ : Shape).ShapeCasts ⟨2, ![nb, o]⟩ := rfl
  have key := LibBlocks.biasRelu_apply hc0 hc3 hb hbd hz _ x3 _ brow p r q hprod h3
  rw [shapeCast_self _ hc0] at key
  exact key

end Cert.Dense

end
-- ==== Proof.Stage.lean ====
/-
  THE DENSE STAGE AS ONE FUNCTION OF FOUR ARRAYS, AND ONE ELEMENT OF WHAT THE KERNEL BODY COMPUTES.

  stage A B Wt brow = max([A | B] · Wt + brow, 0) on 100000 rows: the node features A and the aggregated neighbour
  features B joined side by side, times the transposed weights, plus the bias row broadcast down the rows, rectified.
  The reference's last stage is this function of its earlier stages (stage_eq, by unfolding the stages' names).

  The kernel body takes a block of 5000 rows of A, the same rows of B, the transposed weights and the bias row, and
  computes max([x0 | x1] · x2 + x3, 0). Element (p, q) of that, when row p of the two feature blocks is row r of the
  feature arrays, is element (r, q) of the stage of the whole arrays (pay_entry).
-/
import proofs.«152355_j15324443312418_1_alg».proof.Proof.Gen.KernelIdeal.Skeleton
import proofs.«152355_j15324443312418_1_alg».proof.Proof.Gen.ReferenceIdeal.Read
import proofs.«152355_j15324443312418_1_alg».proof.Proof.Dense

noncomputable section

namespace Cert.KernelIdeal.Whole

open Cert.KernelIdeal Cert.KernelIdeal.Gen
open Idealize.ShloMosaic Idealize.ShloMosaic.ValueIdx
open Cert.ReferenceIdeal.Read (val_main_v20 val_main_v22 val_main_v24 val_main_v27)

/-- The dense stage of the whole arrays: max([A | B] · Wt + brow, 0). -/
def stage (A B : FVec Ideal Cert.ReferenceIdeal.S100000x64 .f32) (wt : FVec Ideal Cert.ReferenceIdeal.S128x64 .f32)
    (brow : FVec Ideal Cert.ReferenceIdeal.S1x64 .f32) : FVec Ideal Cert.ReferenceIdeal.S100000x64 .f32 :=
  maximumf
    (addf
      (Host.dotGeneral Cert.ReferenceIdeal.dot_S100000x128_S128x64_S100000x64_1_0_0_1_n_n none
        (concatenate Cert.ReferenceIdeal.S100000x128 1 [⟨Cert.ReferenceIdeal.S100000x64, A⟩, ⟨Cert.ReferenceIdeal.S100000x64, B⟩]
          Cert.ReferenceIdeal.Facts₀.concatenates_S100000x64_S100000x64_S100000x128_d1) wt)
      (broadcastInDim Cert.ReferenceIdeal.S100000x64 ![0, 1] Cert.ReferenceIdeal.Facts₀.bcast_S1x64_S100000x64_0_1 brow))
    (broadcastInDim Cert.ReferenceIdeal.S100000x64 ![] Cert.ReferenceIdeal.Facts₀.bcast_S_S100000x64 (constant (F := Ideal) Cert.ReferenceIdeal.S_ .f32 0x00000000#32))

/-- The reference's last stage is the dense stage of the node features, its aggregated neighbour features, its
    transposed weights and its bias row. -/
theorem stage_eq (a0 : Cert.ReferenceIdeal.S100000x64.Idx → Elt Ideal .f32) (a1 : Cert.ReferenceIdeal.S1250000x1.Idx → Elt Ideal .f32)
    (a2 a3 : Cert.ReferenceIdeal.S1250000.Idx → Elt Ideal .i32)
    (a4 : Cert.ReferenceIdeal.S64x128.Idx → Elt Ideal .f32) (a5 : Cert.ReferenceIdeal.S64.Idx → Elt Ideal .f32) :
    val_main_v27 (F := Ideal) a0 a1 a2 a3 a4 a5
      = stage a0 (val_main_v20 (F := Ideal) a0 a1 a2 a3) (val_main_v22 (F := Ideal) a4) (val_main_v24 (F := Ideal) a5) := rfl

/-- The body's result at (p, q), over any blocks whose row p is row r of the feature arrays: the stage at (r, q). -/
theorem pay_entry (x0 x1 : Vec Ideal S5000x64 .f32) (x2 : Vec Ideal S128x64 .f32) (x3 : Vec Ideal S1x64 .f32)
    (A B : FVec Ideal Cert.ReferenceIdeal.S100000x64 .f32) (wt : FVec Ideal Cert.ReferenceIdeal.S128x64 .f32)
    (brow : FVec Ideal Cert.ReferenceIdeal.S1x64 .f32)
    (p : Fin 5000) (r : Fin 100000) (q : Fin 64)
    (h0 : ∀ k : Fin 64, x0 (ix2 p k) = A (ix2 r k)) (h1 : ∀ k : Fin 64, x1 (ix2 p k) = B (ix2 r k))
    (h2 : x2 = wt) (h3 : x3 = brow) :
    k0_pay1 x0 x1 x2 x3 (ix2 p q) = stage A B wt brow (ix2 r q) :=
  Cert.Dense.block_entry (nb := 5000) (N := 100000) (a := 64) (b := 64) (c := 128) (o := 64)
    concatenates_S5000x64_S5000x64_S5000x128_d1
    Cert.ReferenceIdeal.Facts₀.concatenates_S100000x64_S100000x64_S100000x128_d1
    dot_S5000x128_S128x64_S5000x64_1_0_0_1_n_n rfl
    Cert.ReferenceIdeal.dot_S100000x128_S128x64_S100000x64_1_0_0_1_n_n rfl
    shapeCasts_S5000x64_S5000x64 shapeCasts_S128x64_S128x64 shapeCasts_S1x64_S1x64 bitsLt_bf16_f32
    broadcasts_S1x64_S5000x64 Cert.ReferenceIdeal.Facts₀.bcast_S1x64_S100000x64_0_1
    Cert.ReferenceIdeal.Facts₀.bcast_S_S100000x64
    x0 x1 x2 x3 A B wt brow p r q h0 h1 h2 h3

end Cert.KernelIdeal.Whole

end
-- ==== Proof.BlocksToArray.lean ====
/-
  THE KERNEL'S RESULT ARRAY AS ONE FUNCTION OF THE ARGUMENTS.

  The kernel works the 100000 rows in 20 blocks of 5000: at grid point t it reads rows 5000 t … 5000 t + 4999 of the
  node features h (window 0) and of the aggregated neighbour features (window 1, an array the host operations before
  the call compute from h, w, src and dst), the whole transposed weight matrix (window 2) and the bias as a 1 x 64 row
  (window 3), and writes rows 5000 t … 5000 t + 4999 of the result (window 4). Element (p, q) of what point t writes
  is the dense stage at row 5000 t + p, column q (pay_entry): the stage reads only that row of the two feature
  arrays, and row p of each block is that row (block_of_stage, for ANY four arrays in the windows' places). The 20
  blocks tile the result array (row r lies in block r / 5000), so the array ends holding the dense stage of the four
  arrays the call is given — which, those arrays being the reference's own stages of the arguments (Proof/HostArrays.lean),
  is the reference's last stage:

      result = max([h | neigh] · Wᵀ + b, 0).
-/
import proofs.«152355_j15324443312418_1_alg».proof.Proof.Gen.KernelIdeal.Value
import proofs.«152355_j15324443312418_1_alg».proof.Proof.Gen.ReferenceIdeal.Read
import proofs.«152355_j15324443312418_1_alg».proof.Proof.HostArrays
import proofs.«152355_j15324443312418_1_alg».proof.Proof.Stage
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.ReferenceIdeal.Read (val_main_v27)

variable (m : (ℓ : Loc nD τ sig) → Buf (Elt Ideal) ℓ) (ρ : Dev nD → PrngReg)

/-! ## The result as one function of the arguments -/

/-- The dense stage of the argument arrays: max([h | neigh] · Wᵀ + b, 0), spelt as the reference's last stage. -/
abbrev G (c : Dev nD) : Cert.ReferenceIdeal.S100000x64.Idx → Elt Ideal .f32 :=
  val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The dense stage of the four arrays the call is given is that function of the arguments. -/
theorem stage_operands (c : Dev nD) :
    stage (V m c (Pipeline.arrRef spec0 0)) (V m c (Pipeline.arrRef spec0 1)) (V m c (Pipeline.arrRef spec0 2))
      (V m c (Pipeline.arrRef spec0 3)) = G m c :=
  (congr (congr (congr (congrArg stage (operand0_eq m c)) (operand1_eq m c)) (operand2_eq m c)) (operand3_eq m c)).trans
    (stage_eq _ _ _ _ _ _).symm

/-! ## From the blocks to the array -/

theorem hz : (![0, 0] : Fin 2 → Nat) = fun _ => 0 := funext fun a => by fin_cases a <;> rfl

/-- The printed index maps, decided over the 20 points: the two feature windows and the result window are at row block t,
    column block 0; the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- For any four arrays in the windows' places: what the body makes of their blocks at point t is block t of their
    dense stage. -/
theorem block_of_stage (t : Fin cfg0.N) (A0 A1 : S100000x64.Idx → Elt Ideal .f32) (A2 : S128x64.Idx → Elt Ideal .f32)
    (A3 : S1x64.Idx → Elt Ideal .f32) :
    (cfg0.win 4).cut (grid0.coords t)
        (out0_4 (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (stage A0 A1 A2 A3) := by
  unfold out0_4
  rw [View.canon_unit_zero hz]
  simp only [View.ld_unit_zero (S := S5000x64) hz, View.ld_unit_zero (S := S128x64) hz, View.ld_unit_zero (S := S1x64) hz]
  obtain ⟨e00, e01, e10, e11, e20, e21, e30, e31, e40, e41⟩ := idx_facts t
  have htN : t.val < 20 := lt_of_lt_of_eq t.isLt N_0
  funext j
  obtain ⟨p, q, rfl⟩ : ∃ (p : Fin 5000) (q : Fin 64), j = ix2 p q := ⟨j 0, j 1, eq_ix2 j⟩
  have hp : p.val < 5000 := p.isLt
  have hr : 5000 * t.val + p.val < 100000 := by omega
  show k0_pay1 (((cfg0.win 0).blk t).view.read (Elt Ideal) A0) (((cfg0.win 1).blk t).view.read (Elt Ideal) A1)
      (((cfg0.win 2).blk t).view.read (Elt Ideal) A2) (((cfg0.win 3).blk t).view.read (Elt Ideal) A3) (ix2 p q)
    = stage A0 A1 A2 A3 (((cfg0.win 4).blk t).view.emb (ix2 p q))
  have hemb : ((cfg0.win 4).blk t).view.emb (ix2 p q) = ix2 (⟨5000 * t.val + p.val, hr⟩ : Fin 100000) q := by
    funext a; apply Fin.ext
    match a with
    | ⟨0, _⟩ => show win0_4.index t (0 : Fin 2) * 5000 + 1 * p.val = 5000 * t.val + p.val; omega
    | ⟨1, _⟩ => show win0_4.index t (1 : Fin 2) * 64 + 1 * q.val = q.val; omega
  rw [hemb]
  -- row p of the two feature blocks is row 5000 t + p of the feature arrays
  have h0 : ∀ k : Fin 64, ((((cfg0.win 0).blk t).view.read (Elt Ideal) A0) : Vec Ideal S5000x64 .f32) (ix2 p k)
      = A0 (ix2 (⟨5000 * t.val + p.val, hr⟩ : Fin 100000) k) := by
    intro k
    have e : ((cfg0.win 0).blk t).view.emb (ix2 p k) = ix2 (⟨5000 * t.val + p.val, hr⟩ : Fin 100000) k := by
      funext a; apply Fin.ext
      match a with
      | ⟨0, _⟩ => show win0_0.index t (0 : Fin 2) * 5000 + 1 * p.val = 5000 * t.val + p.val; omega
      | ⟨1, _⟩ => show win0_0.index t (1 : Fin 2) * 64 + 1 * k.val = k.val; omega
    show A0 (((cfg0.win 0).blk t).view.emb (ix2 p k)) = _
    rw [e]
  have h1 : ∀ k : Fin 64, ((((cfg0.win 1).blk t).view.read (Elt Ideal) A1) : Vec Ideal S5000x64 .f32) (ix2 p k)
      = A1 (ix2 (⟨5000 * t.val + p.val, hr⟩ : Fin 100000) k) := by
    intro k
    have e : ((cfg0.win 1).blk t).view.emb (ix2 p k) = ix2 (⟨5000 * t.val + p.val, hr⟩ : Fin 100000) k := by
      funext a; apply Fin.ext
      match a with
      | ⟨0, _⟩ => show win0_1.index t (0 : Fin 2) * 5000 + 1 * p.val = 5000 * t.val + p.val; omega
      | ⟨1, _⟩ => show win0_1.index t (1 : Fin 2) * 64 + 1 * k.val = k.val; omega
    show A1 (((cfg0.win 1).blk t).view.emb (ix2 p k)) = _
    rw [e]
  -- the weights' and the bias row's one block is the whole array
  have h2 : ((((cfg0.win 2).blk t).view.read (Elt Ideal) A2) : Vec Ideal S128x64 .f32) = A2 := by
    funext y
    have e : ((cfg0.win 2).blk t).view.emb y = y := by
      funext a; apply Fin.ext
      match a with
      | ⟨0, _⟩ => show win0_2.index t (0 : Fin 2) * 128 + 1 * (y 0).val = (y 0).val; omega
      | ⟨1, _⟩ => show win0_2.index t (1 : Fin 2) * 64 + 1 * (y 1).val = (y 1).val; omega
    show A2 (((cfg0.win 2).blk t).view.emb y) = _
    rw [e]
  have h3 : ((((cfg0.win 3).blk t).view.read (Elt Ideal) A3) : Vec Ideal S1x64 .f32) = A3 := by
    funext y
    have e : ((cfg0.win 3).blk t).view.emb y = y := by
      funext a; apply Fin.ext
      match a with
      | ⟨0, _⟩ => show win0_3.index t (0 : Fin 2) * 1 + 1 * (y 0).val = (y 0).val; omega
      | ⟨1, _⟩ => show win0_3.index t (1 : Fin 2) * 64 + 1 * (y 1).val = (y 1).val; omega
    show A3 (((cfg0.win 3).blk t).view.emb y) = _
    rw [e]
  exact pay_entry (((cfg0.win 0).blk t).view.read (Elt Ideal) A0) (((cfg0.win 1).blk t).view.read (Elt Ideal) A1)
    (((cfg0.win 2).blk t).view.read (Elt Ideal) A2) (((cfg0.win 3).blk t).view.read (Elt Ideal) A3) A0 A1 A2 A3 p ⟨5000 * t.val + p.val, hr⟩ q h0 h1 h2 h3

/-- What point t writes back is block t of the dense stage of the argument arrays. -/
theorem flushed_eq (c : Dev nD) (t : Fin cfg0.N) :
    (dats m 0 c).flushed 4 t = ((cfg0.win 4).blk t).view.read (Elt Ideal) (G m c) := by
  rw [flushed4]
  unfold iblk
  exact (block_of_stage t (V m c (Pipeline.arrRef spec0 0)) (V m c (Pipeline.arrRef spec0 1))
      (V m c (Pipeline.arrRef spec0 2)) (V m c (Pipeline.arrRef spec0 3))).trans
    (congrArg (((cfg0.win 4).blk t).view.read (Elt Ideal)) (stage_operands m c))

/-- An index of the result array is in point t's block iff each coordinate is in the block's range on its axis. -/
theorem mem_blk (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v23).slice (win0_4.rect t)).set ↔ _
  rw [View.set_slice_whole, Rect.mem_set_unit]
  exact Iff.rfl

/-- Every element of the result array is written: row r by point r / 5000. -/
theorem cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hlt : (i 0).val / 5000 < cfg0.N := by rw [show cfg0.N = 20 from N_0]; omega
  obtain ⟨-, -, -, -, -, -, -, -, e40, e41⟩ := idx_facts ⟨(i 0).val / 5000, hlt⟩
  have e40' : win0_4.index ⟨(i 0).val / 5000, hlt⟩ (0 : Fin 2) = (i 0).val / 5000 := e40
  refine ⟨⟨(i 0).val / 5000, hlt⟩, flush0_4 _, ?_⟩
  rw [mem_blk]
  intro a
  match a with
  | ⟨0, _⟩ =>
    show win0_4.index ⟨(i 0).val / 5000, hlt⟩ (0 : Fin 2) * 5000 ≤ (i 0).val
      ∧ (i 0).val < win0_4.index ⟨(i 0).val / 5000, hlt⟩ (0 : Fin 2) * 5000 + 5000
    omega
  | ⟨1, _⟩ =>
    show win0_4.index ⟨(i 0).val / 5000, hlt⟩ (1 : Fin 2) * 64 ≤ (i 1).val
      ∧ (i 1).val < win0_4.index ⟨(i 0).val / 5000, hlt⟩ (1 : Fin 2) * 64 + 64
    omega

/-- The result array after the run is the dense stage of the argument arrays. -/
theorem final (c : Dev nD) : (dats m 0 c).arrAt 4 cfg0.N = G m c :=
  (dats m 0 c).arrAt_eq_of_cover 4 (G m c) (fun t _ => flushed_eq m c t) cover

/-! ## The run, read -/

/-- Every weakly fair execution of the kernel program terminates with the result array at the dense stage of the
    arguments and the arguments unchanged. -/
theorem run : θ_run defs (onTc (τ := τ) (main (F := Ideal))) ⟨m, fun _ => 0, ρ⟩ fun r => ∀ c : Dev nD,
      r.2.mem ((c : Thread nD τ).loc main_v23) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.lean ====
/-
  GraphSAGE layer with mean aggregation: the kernel program against its reference, over the extended reals.

  Both programs first compute, with the same host operations in the same order, the aggregated neighbour features

      neigh(v) = ( Σ_{e : dst e = v} h(src e) · w(e) ) / max(#{e : dst e = v}, 1),

  and then the dense stage  out = max([h | neigh] · Wᵀ + b, 0)  on 100000 rows. The reference does the dense stage on
  the whole arrays (a concatenation, a matrix product, a broadcast bias, the rectifier). The kernel does it in 20 blocks
  of 5000 rows: each block joins its rows of h and of neigh, passes both operands of the product through a narrower
  float format (the identity on the extended reals), multiplies on the matrix unit from a zero accumulator, adds the
  bias row and takes the maximum with 0.

  Row r of the result depends on row r of h and of neigh only, so block t of the result is the dense stage of block t
  of the inputs, element by element the same sum of the same products (Proof/Dense.lean), and the 20 blocks tile the
  result (Proof/BlocksToArray.lean). The aggregation is never opened: it is one term on both sides. No law of the
  extended reals beyond the definitions is used, so the precondition (finite inputs) is not needed by the value claim.

  The three frames are the generated ones (the reference's is its generated run with the result dropped); the ideal pass
  rewrote nothing, so the kernel's idealization claim is trivial.
-/
import proofs.«152355_j15324443312418_1_alg».proof.Defs
import proofs.«152355_j15324443312418_1_alg».proof.Proof.Gen.Kernel
import proofs.«152355_j15324443312418_1_alg».proof.Proof.Gen.Kernel.Skeleton
import proofs.«152355_j15324443312418_1_alg».proof.Proof.Gen.Kernel.Launch
import proofs.«152355_j15324443312418_1_alg».proof.Proof.Gen.Kernel.Points
import proofs.«152355_j15324443312418_1_alg».proof.Proof.Gen.Kernel.Frame
import proofs.«152355_j15324443312418_1_alg».proof.Proof.Gen.KernelIdeal
import proofs.«152355_j15324443312418_1_alg».proof.Proof.Gen.KernelIdeal.Skeleton
import proofs.«152355_j15324443312418_1_alg».proof.Proof.Gen.KernelIdeal.Launch
import proofs.«152355_j15324443312418_1_alg».proof.Proof.Gen.KernelIdeal.Points
import proofs.«152355_j15324443312418_1_alg».proof.Proof.Gen.KernelIdeal.Frame
import proofs.«152355_j15324443312418_1_alg».proof.Proof.Gen.ReferenceIdeal
import proofs.«152355_j15324443312418_1_alg».proof.Proof.Gen.Pre_finite_inputs
import proofs.«152355_j15324443312418_1_alg».proof.Proof.Gen.KernelIdeal.Value
import proofs.«152355_j15324443312418_1_alg».proof.Proof.Gen.ReferenceIdeal.Run
import proofs.«152355_j15324443312418_1_alg».proof.Proof.Gen.ReferenceIdeal.Read
import proofs.«152355_j15324443312418_1_alg».proof.Proof.BlocksToArray
import Idealize.ShloMosaic.Adequacy
import Idealize.ShloMosaic.Init

noncomputable section

namespace Cert.Proof

open Idealize.ShloMosaic Idealize.ShloMosaic.TcCoe Idealize.SL.Sem

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the dense stage of the same arguments: the kernel's result array block by block
    (Whole.run), the reference's as its last stage (its run, read stage by stage). -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq]
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
